-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg4 : FVec F S2048x4096 .f32) (main_arg5 : FVec F S2048x4096 .f32) (main_arg6 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048x4096 .f32) (main_arg5 : FVec F S2048x4096 .f32) (main_arg6 : FVec F S2048x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S4096x4096, .f32⟩
  | .hbm, ⟨8, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v38 : BitVec 1 := Scalar.cmpi .eq arg2 c3_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  concatenates_S4096x2048_S4096x2048_S4096x4096_d1 : Shape.Concatenates [S4096x2048, S4096x2048] S4096x4096 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x4096.size a
  hwx0_1 : ∀ i : grid0.Coords, EltTy.bits .f32 = 32 ∨ (Rect.block (s := S2048x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x4096.size a
  hwx0_2 : ∀ i : grid0.Coords, EltTy.bits .f32 = 32 ∨ (Rect.block (s := S2048x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .f32 = 32 ∨ (Rect.block (s := S2048x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x4096.size a
  hwx0_4 : ∀ i : grid0.Coords, EltTy.bits .f32 = 32 ∨ (Rect.block (s := S2048x4096) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x2048.size a
  hwx0_5 : ∀ i : grid0.Coords, EltTy.bits .f32 = 32 ∨ (Rect.block (s := S4096x2048) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x2048.size a
  hwx0_6 : ∀ i : grid0.Coords, EltTy.bits .f32 = 32 ∨ (Rect.block (s := S4096x2048) S1024x512.size (cc0_transform_6 i) (hinb0_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S4096x4096 : Shape := ⟨2, ![4096, 4096]⟩
abbrev S8192x4096 : Shape := ⟨2, ![8192, 4096]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S4096x4096, .f32⟩
  | .hbm, ⟨8, _⟩ => ⟨S8192x4096, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  transposes_S8192x4096_S4096x8192_1_0 : S8192x4096.Transposes [1, 0] S4096x8192
  bcast_S_S4096x8192 : S_.BroadcastsInDim S4096x8192 (![] : Fin 0 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.CellSpec.lean ====
/-
  One step of an LSTM cell over the extended reals, as ONE function of its arguments: what both programs are
  compared with.  Row `b` of the joined array `A` is `[state_b | input_b]`, 4096 numbers; each of the four gates has a
  weight array with one row of 4096 numbers per hidden unit.  A gate's pre-activation at `(b, h)` is the inner product
  of row `b` of `A` with row `h` of the gate's weights; the new hidden value is
  `σ(o) · tanh(σ(f) · c + σ(i) · σ(g))` with `σ` the logistic function and `c` the old cell state at `(b, h)`
  (this cell passes the candidate through `σ` as well, not through `tanh`).
  The only law used between the two programs is that a sum of 4096 terms may be taken as four consecutive
  blocks of 1024: sums of extended reals commute and associate whatever the terms are, so nothing here asks the
  inputs to be finite.
-/
import Idealize.ShloMosaic.PureOps.Ideal
import Idealize.ShloMosaic.Lib.ValueIdx

noncomputable section

namespace Cert.LstmCell

open Idealize.ShloMosaic Idealize.ShloMosaic.ValueIdx

/-- Rows `[state | input]`: 4096 batch rows of 4096 features. -/
abbrev Joined : Shape := ⟨2, ![4096, 4096]⟩
/-- One gate's weights: a row of 4096 per hidden unit. -/
abbrev Weights : Shape := ⟨2, ![2048, 4096]⟩
/-- Batch rows by hidden units. -/
abbrev Hidden : Shape := ⟨2, ![4096, 2048]⟩

/-- A gate's pre-activation at batch row `b` and hidden unit `h`. -/
def preact (A : Joined.Idx → EReal) (W : Weights.Idx → EReal) (b : Fin 4096) (h : Fin 2048) : EReal :=
  ∑ k : Fin 4096, A (ix2 b k) * W (ix2 h k)

/-- The cell's combine: forget, input, candidate and output pre-activations and the old cell state. -/
def combine (pf pi pg po c : EReal) : EReal :=
  Ideal.logistic po * Ideal.tanh (Ideal.logistic pf * c + Ideal.logistic pi * Ideal.logistic pg)

/-- The new hidden state, index by index. -/
def step (A : Joined.Idx → EReal) (Wf Wi Wg Wo : Weights.Idx → EReal) (C : Hidden.Idx → EReal) : Hidden.Idx → EReal :=
  fun i => combine (preact A Wf (i 0) (i 1)) (preact A Wi (i 0) (i 1)) (preact A Wg (i 0) (i 1))
    (preact A Wo (i 0) (i 1)) (C i)

/-- A sum over 4096 consecutive naturals is the sum of its four blocks of 1024. -/
theorem sum_four_blocks (f : ℕ → EReal) :
    ∑ k : Fin 4096, f k.val = ∑ s ∈ Finset.range 4, ∑ k' : Fin 1024, f (1024 * s + k'.val) := by
  have inner : ∀ s, ∑ k' : Fin 1024, f (1024 * s + k'.val) = ∑ k' ∈ Finset.range 1024, f (1024 * s + k') :=
    fun s => Fin.sum_univ_eq_sum_range (fun k => f (1024 * s + k)) 1024
  have four : ∀ g : ℕ → EReal, ∑ s ∈ Finset.range 4, g s = g 0 + g 1 + g 2 + g 3 := fun g => by
    simp [Finset.sum_range_succ]
  rw [Fin.sum_univ_eq_sum_range (fun k => f k) 4096, four]
  simp only [inner]
  rw [show Finset.range 4096 = Finset.range (1024 + 1024 + 1024 + 1024) from rfl, Finset.sum_range_add,
    Finset.sum_range_add, Finset.sum_range_add]
  refine congrArg₂ (· + ·) (congrArg₂ (· + ·) (congrArg₂ (· + ·) ?_ ?_) ?_) ?_ <;>
    exact Finset.sum_congr rfl fun x _ => congrArg f (by omega)

end Cert.LstmCell

end
-- ==== Proof.RefIsCell.lean ====
/-
  The reference, read as the cell step.  Its four gates are computed at once: the four weight arrays are stacked
  into one array of 8192 rows, transposed, and the joined `[state | input]` rows are multiplied with it, so column
  `2048·g + h` of the product is gate `g`'s pre-activation at hidden unit `h`: the inner product with row `h` of
  gate `g`'s weights.  The logistic function is spelled `1 / (1 + exp (-x))` there, which over the extended reals is
  the logistic function itself, and the four column slices pick the gates apart again.
-/
import proofs.«131719_j57303453663323_1_alg».proof.Proof.Gen.ReferenceIdeal.Read
import proofs.«131719_j57303453663323_1_alg».proof.Proof.CellSpec
import Idealize.ShloMosaic.PureOps.IdealRules

noncomputable section

namespace Cert.ReferenceIdeal.CellValue

open Cert.ReferenceIdeal Cert.ReferenceIdeal.Gen Cert.ReferenceIdeal.Read Idealize.ShloMosaic Idealize.ShloMosaic.TcCoe
open Idealize.ShloMosaic.ValueIdx

/-- The reference's `1 / (1 + exp (-x))`, with its literal one, is the logistic function, at every column. -/
theorem gate_is_logistic (x0 x1 : (⟨S4096x2048, .f32⟩ : BufTy).Contents (Elt Ideal))
    (x3 x4 x5 x6 : (⟨S2048x4096, .f32⟩ : BufTy).Contents (Elt Ideal)) (j : S4096x8192.Idx) :
    val_main_v9 (F := Ideal) x0 x1 x3 x4 x5 x6 j
      = Ideal.logistic (val_main_v3 (F := Ideal) x0 x1 x3 x4 x5 x6 j) := by
  have one : FloatOps.ofBits (F := Ideal) .f32 0x3F800000#32 = (1 : EReal) :=
    IdealRules.sign_bit.ideal_onePat .f32
  rw [val_main_v9_apply, val_main_v8_apply, val_main_cst_0_apply, val_main_v7_apply, val_main_v6_apply,
    val_main_cst_apply, val_main_v5_apply, val_main_v4_apply, one]
  rfl

/-- Row `0 + h` of the stacked weights is row `h` of the first weight array. -/
theorem stacked_read_0 (x3 x4 x5 x6 : (⟨S2048x4096, .f32⟩ : BufTy).Contents (Elt Ideal))
    (r : S8192x4096.Idx) (h : Fin 2048) (k : Fin 4096) (hr0 : (r 0).val = 0 + h.val) (hr1 : (r 1).val = k.val) :
    val_main_v1 (F := Ideal) x3 x4 x5 x6 r = x3 (ix2 h k) := by
  unfold val_main_v1
  refine concatenate_apply_piece 0 _ _ r 0 (by show (0 : Nat) < 4; omega) S2048x4096 x3 rfl rfl 0 rfl (ix2 h k) ?_ ?_
  · intro b hb
    match b with
    | ⟨0, _⟩ => exact absurd rfl hb
    | ⟨1, _⟩ => exact hr1.symm
  · show 0 + h.val = (r 0).val
    omega

/-- Row `2048 + h` of the stacked weights is row `h` of the second weight array. -/
theorem stacked_read_1 (x3 x4 x5 x6 : (⟨S2048x4096, .f32⟩ : BufTy).Contents (Elt Ideal))
    (r : S8192x4096.Idx) (h : Fin 2048) (k : Fin 4096) (hr0 : (r 0).val = 2048 + h.val) (hr1 : (r 1).val = k.val) :
    val_main_v1 (F := Ideal) x3 x4 x5 x6 r = x4 (ix2 h k) := by
  unfold val_main_v1
  refine concatenate_apply_piece 0 _ _ r 1 (by show (1 : Nat) < 4; omega) S2048x4096 x4 rfl rfl 2048 rfl (ix2 h k) ?_ ?_
  · intro b hb
    match b with
    | ⟨0, _⟩ => exact absurd rfl hb
    | ⟨1, _⟩ => exact hr1.symm
  · show 2048 + h.val = (r 0).val
    omega

/-- Row `4096 + h` of the stacked weights is row `h` of the third weight array. -/
theorem stacked_read_2 (x3 x4 x5 x6 : (⟨S2048x4096, .f32⟩ : BufTy).Contents (Elt Ideal))
    (r : S8192x4096.Idx) (h : Fin 2048) (k : Fin 4096) (hr0 : (r 0).val = 4096 + h.val) (hr1 : (r 1).val = k.val) :
    val_main_v1 (F := Ideal) x3 x4 x5 x6 r = x5 (ix2 h k) := by
  unfold val_main_v1
  refine concatenate_apply_piece 0 _ _ r 2 (by show (2 : Nat) < 4; omega) S2048x4096 x5 rfl rfl 4096 rfl (ix2 h k) ?_ ?_
  · intro b hb
    match b with
    | ⟨0, _⟩ => exact absurd rfl hb
    | ⟨1, _⟩ => exact hr1.symm
  · show 4096 + h.val = (r 0).val
    omega

/-- Row `6144 + h` of the stacked weights is row `h` of the fourth weight array. -/
theorem stacked_read_3 (x3 x4 x5 x6 : (⟨S2048x4096, .f32⟩ : BufTy).Contents (Elt Ideal))
    (r : S8192x4096.Idx) (h : Fin 2048) (k : Fin 4096) (hr0 : (r 0).val = 6144 + h.val) (hr1 : (r 1).val = k.val) :
    val_main_v1 (F := Ideal) x3 x4 x5 x6 r = x6 (ix2 h k) := by
  unfold val_main_v1
  refine concatenate_apply_piece 0 _ _ r 3 (by show (3 : Nat) < 4; omega) S2048x4096 x6 rfl rfl 6144 rfl (ix2 h k) ?_ ?_
  · intro b hb
    match b with
    | ⟨0, _⟩ => exact absurd rfl hb
    | ⟨1, _⟩ => exact hr1.symm
  · show 6144 + h.val = (r 0).val
    omega

/-- Column `0 + h` of the product is the first gate's pre-activation at hidden unit `h`: the transpose
    turns the column into row `0 + h` of the stacked weights, which is row `h` of the first array. -/
theorem product_col_0 (x0 x1 : (⟨S4096x2048, .f32⟩ : BufTy).Contents (Elt Ideal))
    (x3 x4 x5 x6 : (⟨S2048x4096, .f32⟩ : BufTy).Contents (Elt Ideal)) (j : S4096x8192.Idx) (b : Fin 4096) (h : Fin 2048)
    (hj0 : (j 0).val = b.val) (hj1 : (j 1).val = 0 + h.val) :
    val_main_v3 (F := Ideal) x0 x1 x3 x4 x5 x6 j
      = Cert.LstmCell.preact (val_main_v0 (F := Ideal) x0 x1) x3 b h := by
  rw [val_main_v3_apply]
  unfold Cert.LstmCell.preact
  refine Finset.sum_congr rfl fun k _ => ?_
  have el : lidx_main_v3 j k = ix2 b k := funext fun a => Fin.ext (by
    match a with
    | ⟨0, _⟩ => exact hj0
    | ⟨1, _⟩ => rfl)
  rw [val_main_v2_apply, stacked_read_0 x3 x4 x5 x6 _ h k hj1 rfl, el]

/-- Column `2048 + h` of the product is the second gate's pre-activation at hidden unit `h`: the transpose
    turns the column into row `2048 + h` of the stacked weights, which is row `h` of the second array. -/
theorem product_col_1 (x0 x1 : (⟨S4096x2048, .f32⟩ : BufTy).Contents (Elt Ideal))
    (x3 x4 x5 x6 : (⟨S2048x4096, .f32⟩ : BufTy).Contents (Elt Ideal)) (j : S4096x8192.Idx) (b : Fin 4096) (h : Fin 2048)
    (hj0 : (j 0).val = b.val) (hj1 : (j 1).val = 2048 + h.val) :
    val_main_v3 (F := Ideal) x0 x1 x3 x4 x5 x6 j
      = Cert.LstmCell.preact (val_main_v0 (F := Ideal) x0 x1) x4 b h := by
  rw [val_main_v3_apply]
  unfold Cert.LstmCell.preact
  refine Finset.sum_congr rfl fun k _ => ?_
  have el : lidx_main_v3 j k = ix2 b k := funext fun a => Fin.ext (by
    match a with
    | ⟨0, _⟩ => exact hj0
    | ⟨1, _⟩ => rfl)
  rw [val_main_v2_apply, stacked_read_1 x3 x4 x5 x6 _ h k hj1 rfl, el]

/-- Column `4096 + h` of the product is the third gate's pre-activation at hidden unit `h`: the transpose
    turns the column into row `4096 + h` of the stacked weights, which is row `h` of the third array. -/
theorem product_col_2 (x0 x1 : (⟨S4096x2048, .f32⟩ : BufTy).Contents (Elt Ideal))
    (x3 x4 x5 x6 : (⟨S2048x4096, .f32⟩ : BufTy).Contents (Elt Ideal)) (j : S4096x8192.Idx) (b : Fin 4096) (h : Fin 2048)
    (hj0 : (j 0).val = b.val) (hj1 : (j 1).val = 4096 + h.val) :
    val_main_v3 (F := Ideal) x0 x1 x3 x4 x5 x6 j
      = Cert.LstmCell.preact (val_main_v0 (F := Ideal) x0 x1) x5 b h := by
  rw [val_main_v3_apply]
  unfold Cert.LstmCell.preact
  refine Finset.sum_congr rfl fun k _ => ?_
  have el : lidx_main_v3 j k = ix2 b k := funext fun a => Fin.ext (by
    match a with
    | ⟨0, _⟩ => exact hj0
    | ⟨1, _⟩ => rfl)
  rw [val_main_v2_apply, stacked_read_2 x3 x4 x5 x6 _ h k hj1 rfl, el]

/-- Column `6144 + h` of the product is the fourth gate's pre-activation at hidden unit `h`: the transpose
    turns the column into row `6144 + h` of the stacked weights, which is row `h` of the fourth array. -/
theorem product_col_3 (x0 x1 : (⟨S4096x2048, .f32⟩ : BufTy).Contents (Elt Ideal))
    (x3 x4 x5 x6 : (⟨S2048x4096, .f32⟩ : BufTy).Contents (Elt Ideal)) (j : S4096x8192.Idx) (b : Fin 4096) (h : Fin 2048)
    (hj0 : (j 0).val = b.val) (hj1 : (j 1).val = 6144 + h.val) :
    val_main_v3 (F := Ideal) x0 x1 x3 x4 x5 x6 j
      = Cert.LstmCell.preact (val_main_v0 (F := Ideal) x0 x1) x6 b h := by
  rw [val_main_v3_apply]
  unfold Cert.LstmCell.preact
  refine Finset.sum_congr rfl fun k _ => ?_
  have el : lidx_main_v3 j k = ix2 b k := funext fun a => Fin.ext (by
    match a with
    | ⟨0, _⟩ => exact hj0
    | ⟨1, _⟩ => rfl)
  rw [val_main_v2_apply, stacked_read_3 x3 x4 x5 x6 _ h k hj1 rfl, el]

/-- The reference's result is the cell step of the joined rows (its own first operation, left as it is), the four
    weight arrays and the old cell state. -/
theorem result_is_step (x0 x1 x2 : (⟨S4096x2048, .f32⟩ : BufTy).Contents (Elt Ideal))
    (x3 x4 x5 x6 : (⟨S2048x4096, .f32⟩ : BufTy).Contents (Elt Ideal)) :
    val_main_v18 (F := Ideal) x0 x1 x2 x3 x4 x5 x6
      = Cert.LstmCell.step (val_main_v0 (F := Ideal) x0 x1) x3 x4 x5 x6 x2 := by
  funext i
  rw [val_main_v18_apply, val_main_v13_apply, val_main_v17_apply, val_main_v16_apply, val_main_v14_apply,
    val_main_v15_apply, val_main_v10_apply, val_main_v11_apply, val_main_v12_apply,
    gate_is_logistic x0 x1 x3 x4 x5 x6 (idx_main_v10 i), gate_is_logistic x0 x1 x3 x4 x5 x6 (idx_main_v11 i),
    gate_is_logistic x0 x1 x3 x4 x5 x6 (idx_main_v12 i), gate_is_logistic x0 x1 x3 x4 x5 x6 (idx_main_v13 i),
    product_col_0 x0 x1 x3 x4 x5 x6 (idx_main_v10 i) (i 0) (i 1) rfl (by show (i 1).val = 0 + (i 1).val; omega),
    product_col_1 x0 x1 x3 x4 x5 x6 (idx_main_v11 i) (i 0) (i 1) rfl rfl,
    product_col_2 x0 x1 x3 x4 x5 x6 (idx_main_v12 i) (i 0) (i 1) rfl rfl,
    product_col_3 x0 x1 x3 x4 x5 x6 (idx_main_v13 i) (i 0) (i 1) rfl rfl]
  rfl

end Cert.ReferenceIdeal.CellValue

end
-- ==== Proof.PointValues.lean ====
/-
  What one grid point leaves behind, as values.  The kernel keeps one running sum per gate in a scratch block of
  1024 batch rows by 512 hidden units.  At the first of the four points along the contraction axis it stores zeros
  and then adds that point's block product; at the two middle points it adds the block product to what the point
  before left; at the last point it adds once more and then stores the hidden block: the cell's combine of the four
  finished sums and the old cell state's block.  All four gates take the same step, spelled four ways in the body
  (a shape cast to the same shape, or the conversion of the joined rows shared through a name); `accStep` is the one
  form they are all equal to.  Every statement here holds for any reading of the floats.
-/
import proofs.«131719_j57303453663323_1_alg».proof.Proof.Gen.KernelIdeal.Frame
import Idealize.ShloMosaic.Lib.Pipeline.Value
import Idealize.ShloMosaic.Lib.Tactic

set_option maxRecDepth 16384

noncomputable section

namespace Cert.KernelIdeal.CellPieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The block of zeros a running sum starts from. -/
def zeroBlock : FVec F S1024x512 .f32 := broadcast S1024x512 (Scalar.ofBits .f32 0x00000000#32)

/-- One accumulation step: the running sum `acc` plus the product of a block `x` of joined rows (1024 rows, 1024
    features) with a block `w` of a gate's weights (512 hidden units, the same 1024 features), contracted over the features. -/
def accStep (x : Vec F S1024x1024 .f32) (w : Vec F S512x1024 .f32) (acc : Vec F S1024x512 .f32) : FVec F S1024x512 .f32 :=
  addf acc (matmul dot_S1024x1024_S512x1024_S1024x512_1_1_0_0_n_n none (truncf .bf16 (x : FVec F S1024x1024 .f32) bitsLt_bf16_f32)
    (truncf .bf16 (w : FVec F S512x1024 .f32) bitsLt_bf16_f32) (constant S1024x512 .f32 0x00000000#32))

/-- The hidden block from the four finished sums and the old cell state's block. -/
def hiddenBlock (af ai ag ao cblk : Vec F S1024x512 .f32) : FVec F S1024x512 .f32 := k0_pay3 af ai ag ao cblk

/-! ## The body's four spellings of the step, and of the zeros -/

theorem stepF (x : Vec F S1024x1024 .f32) (w : Vec F S512x1024 .f32) (acc : Vec F S1024x512 .f32) :
    k0_pay10 x w acc = accStep x w acc := by
  unfold k0_pay10 k0_pay8 accStep
  simp only [shapeCast_self]

theorem stepI (x : Vec F S1024x1024 .f32) (w : Vec F S512x1024 .f32) (acc : Vec F S1024x512 .f32) :
    k0_pay11 x w acc = accStep x w acc := by
  unfold k0_pay11 k0_pay8 accStep
  simp only [shapeCast_self]

theorem stepG (x : Vec F S1024x1024 .f32) (w : Vec F S512x1024 .f32) (acc : Vec F S1024x512 .f32) :
    k0_pay1 (k0_pay12 x w acc) = accStep x w acc := by
  unfold k0_pay1 k0_pay12 k0_pay8 accStep
  simp only [shapeCast_self]

theorem stepO (x : Vec F S1024x1024 .f32) (w : Vec F S512x1024 .f32) (acc : Vec F S1024x512 .f32) :
    k0_pay2 (k0_pay8 x) (k0_pay9 w) acc = accStep x w acc := by
  unfold k0_pay2 k0_pay8 k0_pay9 accStep
  simp only [shapeCast_self]

theorem zeroF : (k0_pay4 : FVec F S1024x512 .f32) = zeroBlock := by
  unfold k0_pay4 zeroBlock
  simp only [shapeCast_self]
theorem zeroI : (k0_pay5 : FVec F S1024x512 .f32) = zeroBlock := by
  unfold k0_pay5 zeroBlock
  simp only [shapeCast_self]
theorem zeroG : (k0_pay6 : FVec F S1024x512 .f32) = zeroBlock := by
  unfold k0_pay6 zeroBlock
  simp only [shapeCast_self]
theorem zeroO : (k0_pay7 : FVec F S1024x512 .f32) = zeroBlock := by
  unfold k0_pay7 zeroBlock
  simp only [shapeCast_self]

variable (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole)

/-! ## A middle point: the sum the point before left, plus this point's block product -/

theorem midF (hc0 : ¬cond0_0 i) (hc1 : ¬cond0_1 i) (x0 : Vec F S1024x1024 .f32) (x1 x2 x3 x4 : Vec F S512x1024 .f32) (x5 xs0 xs1 xs2 xs3 : Vec F S1024x512 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepF]

theorem midI (hc0 : ¬cond0_0 i) (hc1 : ¬cond0_1 i) (x0 : Vec F S1024x1024 .f32) (x1 x2 x3 x4 : Vec F S512x1024 .f32) (x5 xs0 xs1 xs2 xs3 : Vec F S1024x512 .f32) :
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepI]

theorem midG (hc0 : ¬cond0_0 i) (hc1 : ¬cond0_1 i) (x0 : Vec F S1024x1024 .f32) (x1 x2 x3 x4 : Vec F S512x1024 .f32) (x5 xs0 xs1 xs2 xs3 : Vec F S1024x512 .f32) :
    sout0_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x3 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepG]

theorem midO (hc0 : ¬cond0_0 i) (hc1 : ¬cond0_1 i) (x0 : Vec F S1024x1024 .f32) (x1 x2 x3 x4 : Vec F S512x1024 .f32) (x5 xs0 xs1 xs2 xs3 : Vec F S1024x512 .f32) :
    sout0_B_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x4 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepO]

/-! ## The last point: the same step (the hidden block is stored afterwards, from the four finished sums) -/

theorem lastF (hc0 : ¬cond0_0 i) (hc1 : cond0_1 i) (x0 : Vec F S1024x1024 .f32) (x1 x2 x3 x4 : Vec F S512x1024 .f32) (x5 xs0 xs1 xs2 xs3 : Vec F S1024x512 .f32) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepF]

theorem lastI (hc0 : ¬cond0_0 i) (hc1 : cond0_1 i) (x0 : Vec F S1024x1024 .f32) (x1 x2 x3 x4 : Vec F S512x1024 .f32) (x5 xs0 xs1 xs2 xs3 : Vec F S1024x512 .f32) :
    sout0_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepI]

theorem lastG (hc0 : ¬cond0_0 i) (hc1 : cond0_1 i) (x0 : Vec F S1024x1024 .f32) (x1 x2 x3 x4 : Vec F S512x1024 .f32) (x5 xs0 xs1 xs2 xs3 : Vec F S1024x512 .f32) :
    sout0_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x3 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepG]

theorem lastO (hc0 : ¬cond0_0 i) (hc1 : cond0_1 i) (x0 : Vec F S1024x1024 .f32) (x1 x2 x3 x4 : Vec F S512x1024 .f32) (x5 xs0 xs1 xs2 xs3 : Vec F S1024x512 .f32) :
    sout0_C_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = accStep x0 x4 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepO]

/-! ## The first point: zeros, then the step -/

theorem firstF (hc0 : cond0_0 i) (hc1 : ¬cond0_1 i) (x0 : Vec F S1024x1024 .f32) (x1 x2 x3 x4 : Vec F S512x1024 .f32) (x5 : Vec F S1024x512 .f32) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 = accStep x0 x1 zeroBlock := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepF, zeroF]

theorem firstI (hc0 : cond0_0 i) (hc1 : ¬cond0_1 i) (x0 : Vec F S1024x1024 .f32) (x1 x2 x3 x4 : Vec F S512x1024 .f32) (x5 : Vec F S1024x512 .f32) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 = accStep x0 x2 zeroBlock := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepI, zeroI]

theorem firstG (hc0 : cond0_0 i) (hc1 : ¬cond0_1 i) (x0 : Vec F S1024x1024 .f32) (x1 x2 x3 x4 : Vec F S512x1024 .f32) (x5 : Vec F S1024x512 .f32) :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5 = accStep x0 x3 zeroBlock := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepG, zeroG]

theorem firstO (hc0 : cond0_0 i) (hc1 : ¬cond0_1 i) (x0 : Vec F S1024x1024 .f32) (x1 x2 x3 x4 : Vec F S512x1024 .f32) (x5 : Vec F S1024x512 .f32) :
    sout0_A_3 c i arg3 harg3 arg4 harg4 arg5 harg5 arg6 harg6 arg7 harg7 arg8 harg8 arg9 harg9 arg10 harg10 arg11 harg11 arg12 harg12 arg13 harg13 hc0 hc1 x0 x1 x2 x3 x4 x5 = accStep x0 x4 zeroBlock := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, stepO, zeroO]

/-! ## The hidden block stored at the last point -/

theorem hiddenLast (hc0 : ¬cond0_0 i) (hc1 : cond0_1 i) (x0 : Vec F S1024x1024 .f32) (x1 x2 x3 x4 : Vec F S512x1024 .f32) (x5 xs0 xs1 xs2 xs3 : Vec F S1024x512 .f32) :
    out0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = hiddenBlock (accStep x0 x1 xs0) (accStep x0 x2 xs1) (accStep x0 x3 xs2) (accStep x0 x4 xs3) x5 := by
  unfold out0_C_6
  rw [View.read_writes_eq_canon _ _ _ (cover0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg10.read_unread, harg11.read_unread, harg12.read_unread, harg13.read_unread, View.ld_unit_zero (S := S1024x1024) hz, View.ld_unit_zero (S := S512x1024) hz, View.ld_unit_zero (S := S1024x512) hz, View.readCov_unit_zero (S := S1024x512) _ hz, stepF, stepI, stepG, stepO]
  rfl

end Cert.KernelIdeal.CellPieces

end
-- ==== Proof.StepAtIndex.lean ====
/-
  The accumulation step and the combine, read at an index over the extended reals.  There the conversion of the
  operands to a shorter float format is the identity and the product unit's result is the exact sum, so one step at
  batch row `p` and hidden unit `r` of a block adds `Σ_k x(p, k) · w(r, k)` over the block's 1024 features to the
  running sum, the zeros are the number zero, and the hidden block is the cell's combine entry by entry.
-/
import proofs.«131719_j57303453663323_1_alg».proof.Proof.PointValues
import proofs.«131719_j57303453663323_1_alg».proof.Proof.CellSpec
import Idealize.ShloMosaic.PureOps.Ideal.Laws
import Idealize.ShloMosaic.Lib.ValueIdx

noncomputable section

namespace Cert.KernelIdeal.CellPieces

open Cert.KernelIdeal Cert.KernelIdeal.Gen Idealize.ShloMosaic Idealize.ShloMosaic.TcCoe Idealize.SL.Sem
open Idealize.ShloMosaic.ValueIdx

/-! ## The product's operand indices: output entry `(p, r)` and feature `k` read `x(p, k)` and `w(r, k)` -/

theorem lhs_row (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_feature (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_unit (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_feature (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The zeros are zero. -/
theorem zeroBlock_apply (y : S1024x512.Idx) : (zeroBlock (F := Ideal)) y = (0 : EReal) := by
  show Ideal.ofBits .f32 0x00000000#32 = 0
  exact Ideal.ofBits_zero_f32

/-- One step at entry `(p, r)`: the running sum there plus the inner product of row `p` of `x` with row `r` of `w`. -/
theorem accStep_apply (x : Vec Ideal S1024x1024 .f32) (w : Vec Ideal S512x1024 .f32) (acc : Vec Ideal S1024x512 .f32)
    (p : Fin 1024) (r : Fin 512) :
    accStep (F := Ideal) x w acc (ix2 p r) = (acc (ix2 p r) : EReal) + ∑ k : Fin 1024, (x (ix2 p k) : EReal) * (w (ix2 r k) : EReal) := by
  unfold accStep
  show (acc (ix2 p r) : EReal) + FloatOps.matmul (F := Ideal) dot_S1024x1024_S512x1024_S1024x512_1_1_0_0_n_n none
      (truncf .bf16 (x : FVec Ideal S1024x1024 .f32) bitsLt_bf16_f32) (truncf .bf16 (w : FVec Ideal S512x1024 .f32) bitsLt_bf16_f32)
      (constant S1024x512 .f32 0x00000000#32) (ix2 p r) = _
  rw [Ideal.matmul_constant_zero_apply, ← Equiv.sum_comp (ValueIdx.contrEquiv1 dot_S1024x1024_S512x1024_S1024x512_1_1_0_0_n_n 1024 rfl rfl).symm]
  refine congrArg _ (Finset.sum_congr rfl fun k _ => ?_)
  have hk := ValueIdx.contrEquiv1_symm_val dot_S1024x1024_S512x1024_S1024x512_1_1_0_0_n_n 1024 rfl rfl k
  have el : dot_S1024x1024_S512x1024_S1024x512_1_1_0_0_n_n.lhsIdx (ix2 p r) ((ValueIdx.contrEquiv1 dot_S1024x1024_S512x1024_S1024x512_1_1_0_0_n_n 1024 rfl rfl).symm k) = ix2 p k := funext fun a => Fin.ext (by
    match a with
    | ⟨0, _⟩ => exact lhs_row _ _
    | ⟨1, _⟩ => exact (lhs_feature _ _).trans hk)
  have er : dot_S1024x1024_S512x1024_S1024x512_1_1_0_0_n_n.rhsIdx (ix2 p r) ((ValueIdx.contrEquiv1 dot_S1024x1024_S512x1024_S1024x512_1_1_0_0_n_n 1024 rfl rfl).symm k) = ix2 r k := funext fun a => Fin.ext (by
    match a with
    | ⟨0, _⟩ => exact rhs_unit _ _
    | ⟨1, _⟩ => exact (rhs_feature _ _).trans hk)
  rw [el, er]
  rfl

/-- The hidden block entry by entry: the cell's combine of the four sums and the old cell state there. -/
theorem hiddenBlock_apply (af ai ag ao cblk : Vec Ideal S1024x512 .f32) (y : S1024x512.Idx) :
    hiddenBlock (F := Ideal) af ai ag ao cblk y = Cert.LstmCell.combine (af y) (ai y) (ag y) (ao y) (cblk y) := rfl

end Cert.KernelIdeal.CellPieces

end
-- ==== Proof.GateSums.lean ====
/-
  The four running sums along the contraction axis.  The generated value leg gives each gate's scratch after
  point `t` as a fold: its first point `4·(t/4)` of the run stores zeros and adds its block product, every later
  point adds its own.  Read entry by entry over the extended reals, the fold is `0` plus the sum of the block
  products of the points `4·(t/4) … t`; so at a last point (`t % 4 = 3`) all four blocks of 1024 features are in,
  and the hidden block the body stores there is the cell's combine of the four finished sums with the old cell
  state's block.
-/
import proofs.«131719_j57303453663323_1_alg».proof.Proof.StepAtIndex
import proofs.«131719_j57303453663323_1_alg».proof.Proof.Gen.KernelIdeal.Value
import Idealize.ShloMosaic.Lib.Pipeline.Value

noncomputable section

namespace Cert.KernelIdeal.CellSums

open Cert.KernelIdeal Cert.KernelIdeal.Gen Cert.KernelIdeal.CellPieces Idealize.ShloMosaic Idealize.ShloMosaic.TcCoe Idealize.SL.Sem
open Idealize.ShloMosaic.ValueIdx

variable (m : (ℓ : Loc nD τ sig) → Buf (Elt Ideal) ℓ)

/-! ## The blocks a point works on, as arrays of extended reals -/

/-- The joined rows' block at a point: 1024 rows by 1024 features. -/
abbrev rowsBlk (c : Dev nD) (t : Fin cfg0.N) : S1024x1024.Idx → EReal := iblk m c 0 t
/-- The forget gate's weight block at a point: 512 hidden units by 1024 features. -/
abbrev wBlkF (c : Dev nD) (t : Fin cfg0.N) : S512x1024.Idx → EReal := iblk m c 1 t
/-- The input gate's. -/
abbrev wBlkI (c : Dev nD) (t : Fin cfg0.N) : S512x1024.Idx → EReal := iblk m c 2 t
/-- The candidate gate's. -/
abbrev wBlkG (c : Dev nD) (t : Fin cfg0.N) : S512x1024.Idx → EReal := iblk m c 3 t
/-- The output gate's. -/
abbrev wBlkO (c : Dev nD) (t : Fin cfg0.N) : S512x1024.Idx → EReal := iblk m c 4 t
/-- The old cell state's block at a point: 1024 rows by 512 hidden units. -/
abbrev cellBlk (c : Dev nD) (t : Fin cfg0.N) : S1024x512.Idx → EReal := iblk m c 5 t

/-! ## One point's block product, per gate (zero past the grid, where it is never used) -/

/-- Point `n`'s addend to the forget gate's sum at an entry of the block: the inner product of the joined rows' block
    with the gate's weight block there. -/
def addF (c : Dev nD) (n : ℕ) : S1024x512.Idx → EReal := fun y =>
  if h : n < cfg0.N then
    ∑ k : Fin 1024, rowsBlk m c ⟨n, h⟩ (ix2 (y 0) k) * wBlkF m c ⟨n, h⟩ (ix2 (y 1) k)
  else 0

/-- Point `n`'s addend to the input gate's sum at an entry of the block: the inner product of the joined rows' block
    with the gate's weight block there. -/
def addI (c : Dev nD) (n : ℕ) : S1024x512.Idx → EReal := fun y =>
  if h : n < cfg0.N then
    ∑ k : Fin 1024, rowsBlk m c ⟨n, h⟩ (ix2 (y 0) k) * wBlkI m c ⟨n, h⟩ (ix2 (y 1) k)
  else 0

/-- Point `n`'s addend to the candidate gate's sum at an entry of the block: the inner product of the joined rows' block
    with the gate's weight block there. -/
def addG (c : Dev nD) (n : ℕ) : S1024x512.Idx → EReal := fun y =>
  if h : n < cfg0.N then
    ∑ k : Fin 1024, rowsBlk m c ⟨n, h⟩ (ix2 (y 0) k) * wBlkG m c ⟨n, h⟩ (ix2 (y 1) k)
  else 0

/-- Point `n`'s addend to the output gate's sum at an entry of the block: the inner product of the joined rows' block
    with the gate's weight block there. -/
def addO (c : Dev nD) (n : ℕ) : S1024x512.Idx → EReal := fun y =>
  if h : n < cfg0.N then
    ∑ k : Fin 1024, rowsBlk m c ⟨n, h⟩ (ix2 (y 0) k) * wBlkO m c ⟨n, h⟩ (ix2 (y 1) k)
  else 0

/-! ## What a point does to a gate's scratch, entry by entry -/

/-- A point that is not the first of its run adds its block product to what the point before left. -/
theorem laterF (c : Dev nD) (n : ℕ) (hb : n < cfg0.N) (hn : ¬n % 4 = 0) (acc : Vec Ideal S1024x512 .f32) (y : S1024x512.Idx) :
    (Value.scAt0_0 m c n hb acc y : EReal) = (acc y : EReal) + addF m c n y := by
  obtain ⟨p, r, rfl⟩ : ∃ (p : Fin 1024) (r : Fin 512), y = ix2 p r := ⟨y 0, y 1, eq_ix2 y⟩
  unfold Value.scAt0_0 addF
  rw [dif_neg hn, dif_pos hb]
  by_cases h1 : n % 4 = 3
  · rw [dif_pos h1, lastF, accStep_apply]
  · rw [dif_neg h1, midF, accStep_apply]

/-- The first point of a run starts from zero, whatever the scratch held. -/
theorem startF (c : Dev nD) (n : ℕ) (hb : n < cfg0.N) (hn : n % 4 = 0) (acc : Vec Ideal S1024x512 .f32) (y : S1024x512.Idx) :
    (Value.scAt0_0 m c n hb acc y : EReal) = (0 : EReal) + addF m c n y := by
  obtain ⟨p, r, rfl⟩ : ∃ (p : Fin 1024) (r : Fin 512), y = ix2 p r := ⟨y 0, y 1, eq_ix2 y⟩
  unfold Value.scAt0_0 addF
  rw [dif_pos hn, dif_neg (by omega), dif_pos hb, firstF, accStep_apply, zeroBlock_apply]

/-- The forget gate's scratch after point `t`: the block products of the points since the run's first, summed. -/
theorem sumF (c : Dev nD) (t : Fin cfg0.N) (y : S1024x512.Idx) :
    (((outsAt0 m c t.val t.isLt).2.1 : Vec Ideal S1024x512 .f32) y : EReal)
      = (0 : EReal) + ∑ s ∈ Finset.range (t.val % 4 + 1), addF m c (4 * (t.val / 4) + s) y := by
  rw [Value.soutsAt0_0_eq m c t]
  exact Pipeline.accAt_add_apply (ι := S1024x512.Idx) (β := EReal) _ _ (fun _ => 0) (addF m c) (4 * (t.val / 4)) 3
    (fun h i => startF m c _ h (by omega) _ i)
    (fun n h acc i hlo hhi => laterF m c n h (by omega) acc i)
    (t.val % 4) (by omega) _ y

/-- A point that is not the first of its run adds its block product to what the point before left. -/
theorem laterI (c : Dev nD) (n : ℕ) (hb : n < cfg0.N) (hn : ¬n % 4 = 0) (acc : Vec Ideal S1024x512 .f32) (y : S1024x512.Idx) :
    (Value.scAt0_1 m c n hb acc y : EReal) = (acc y : EReal) + addI m c n y := by
  obtain ⟨p, r, rfl⟩ : ∃ (p : Fin 1024) (r : Fin 512), y = ix2 p r := ⟨y 0, y 1, eq_ix2 y⟩
  unfold Value.scAt0_1 addI
  rw [dif_neg hn, dif_pos hb]
  by_cases h1 : n % 4 = 3
  · rw [dif_pos h1, lastI, accStep_apply]
  · rw [dif_neg h1, midI, accStep_apply]

/-- The first point of a run starts from zero, whatever the scratch held. -/
theorem startI (c : Dev nD) (n : ℕ) (hb : n < cfg0.N) (hn : n % 4 = 0) (acc : Vec Ideal S1024x512 .f32) (y : S1024x512.Idx) :
    (Value.scAt0_1 m c n hb acc y : EReal) = (0 : EReal) + addI m c n y := by
  obtain ⟨p, r, rfl⟩ : ∃ (p : Fin 1024) (r : Fin 512), y = ix2 p r := ⟨y 0, y 1, eq_ix2 y⟩
  unfold Value.scAt0_1 addI
  rw [dif_pos hn, dif_neg (by omega), dif_pos hb, firstI, accStep_apply, zeroBlock_apply]

/-- The input gate's scratch after point `t`: the block products of the points since the run's first, summed. -/
theorem sumI (c : Dev nD) (t : Fin cfg0.N) (y : S1024x512.Idx) :
    (((outsAt0 m c t.val t.isLt).2.2.1 : Vec Ideal S1024x512 .f32) y : EReal)
      = (0 : EReal) + ∑ s ∈ Finset.range (t.val % 4 + 1), addI m c (4 * (t.val / 4) + s) y := by
  rw [Value.soutsAt0_1_eq m c t]
  exact Pipeline.accAt_add_apply (ι := S1024x512.Idx) (β := EReal) _ _ (fun _ => 0) (addI m c) (4 * (t.val / 4)) 3
    (fun h i => startI m c _ h (by omega) _ i)
    (fun n h acc i hlo hhi => laterI m c n h (by omega) acc i)
    (t.val % 4) (by omega) _ y

/-- A point that is not the first of its run adds its block product to what the point before left. -/
theorem laterG (c : Dev nD) (n : ℕ) (hb : n < cfg0.N) (hn : ¬n % 4 = 0) (acc : Vec Ideal S1024x512 .f32) (y : S1024x512.Idx) :
    (Value.scAt0_2 m c n hb acc y : EReal) = (acc y : EReal) + addG m c n y := by
  obtain ⟨p, r, rfl⟩ : ∃ (p : Fin 1024) (r : Fin 512), y = ix2 p r := ⟨y 0, y 1, eq_ix2 y⟩
  unfold Value.scAt0_2 addG
  rw [dif_neg hn, dif_pos hb]
  by_cases h1 : n % 4 = 3
  · rw [dif_pos h1, lastG, accStep_apply]
  · rw [dif_neg h1, midG, accStep_apply]

/-- The first point of a run starts from zero, whatever the scratch held. -/
theorem startG (c : Dev nD) (n : ℕ) (hb : n < cfg0.N) (hn : n % 4 = 0) (acc : Vec Ideal S1024x512 .f32) (y : S1024x512.Idx) :
    (Value.scAt0_2 m c n hb acc y : EReal) = (0 : EReal) + addG m c n y := by
  obtain ⟨p, r, rfl⟩ : ∃ (p : Fin 1024) (r : Fin 512), y = ix2 p r := ⟨y 0, y 1, eq_ix2 y⟩
  unfold Value.scAt0_2 addG
  rw [dif_pos hn, dif_neg (by omega), dif_pos hb, firstG, accStep_apply, zeroBlock_apply]

/-- The candidate gate's scratch after point `t`: the block products of the points since the run's first, summed. -/
theorem sumG (c : Dev nD) (t : Fin cfg0.N) (y : S1024x512.Idx) :
    (((outsAt0 m c t.val t.isLt).2.2.2.1 : Vec Ideal S1024x512 .f32) y : EReal)
      = (0 : EReal) + ∑ s ∈ Finset.range (t.val % 4 + 1), addG m c (4 * (t.val / 4) + s) y := by
  rw [Value.soutsAt0_2_eq m c t]
  exact Pipeline.accAt_add_apply (ι := S1024x512.Idx) (β := EReal) _ _ (fun _ => 0) (addG m c) (4 * (t.val / 4)) 3
    (fun h i => startG m c _ h (by omega) _ i)
    (fun n h acc i hlo hhi => laterG m c n h (by omega) acc i)
    (t.val % 4) (by omega) _ y

/-- A point that is not the first of its run adds its block product to what the point before left. -/
theorem laterO (c : Dev nD) (n : ℕ) (hb : n < cfg0.N) (hn : ¬n % 4 = 0) (acc : Vec Ideal S1024x512 .f32) (y : S1024x512.Idx) :
    (Value.scAt0_3 m c n hb acc y : EReal) = (acc y : EReal) + addO m c n y := by
  obtain ⟨p, r, rfl⟩ : ∃ (p : Fin 1024) (r : Fin 512), y = ix2 p r := ⟨y 0, y 1, eq_ix2 y⟩
  unfold Value.scAt0_3 addO
  rw [dif_neg hn, dif_pos hb]
  by_cases h1 : n % 4 = 3
  · rw [dif_pos h1, lastO, accStep_apply]
  · rw [dif_neg h1, midO, accStep_apply]

/-- The first point of a run starts from zero, whatever the scratch held. -/
theorem startO (c : Dev nD) (n : ℕ) (hb : n < cfg0.N) (hn : n % 4 = 0) (acc : Vec Ideal S1024x512 .f32) (y : S1024x512.Idx) :
    (Value.scAt0_3 m c n hb acc y : EReal) = (0 : EReal) + addO m c n y := by
  obtain ⟨p, r, rfl⟩ : ∃ (p : Fin 1024) (r : Fin 512), y = ix2 p r := ⟨y 0, y 1, eq_ix2 y⟩
  unfold Value.scAt0_3 addO
  rw [dif_pos hn, dif_neg (by omega), dif_pos hb, firstO, accStep_apply, zeroBlock_apply]

/-- The output gate's scratch after point `t`: the block products of the points since the run's first, summed. -/
theorem sumO (c : Dev nD) (t : Fin cfg0.N) (y : S1024x512.Idx) :
    (((outsAt0 m c t.val t.isLt).2.2.2.2 : Vec Ideal S1024x512 .f32) y : EReal)
      = (0 : EReal) + ∑ s ∈ Finset.range (t.val % 4 + 1), addO m c (4 * (t.val / 4) + s) y := by
  rw [Value.soutsAt0_3_eq m c t]
  exact Pipeline.accAt_add_apply (ι := S1024x512.Idx) (β := EReal) _ _ (fun _ => 0) (addO m c) (4 * (t.val / 4)) 3
    (fun h i => startO m c _ h (by omega) _ i)
    (fun n h acc i hlo hhi => laterO m c n h (by omega) acc i)
    (t.val % 4) (by omega) _ y

/-! ## The hidden block a last point stores -/

/-- At a last point the output's block is the combine of the four scratches as that point leaves them. -/
theorem hidden_eq (c : Dev nD) (t : Fin cfg0.N) (h0 : ¬t.val % 4 = 0) (h1 : t.val % 4 = 3) :
    (outsAt0 m c t.val t.isLt).1
      = hiddenBlock (outsAt0 m c t.val t.isLt).2.1 (outsAt0 m c t.val t.isLt).2.2.1 (outsAt0 m c t.val t.isLt).2.2.2.1
          (outsAt0 m c t.val t.isLt).2.2.2.2 (iblk m c 5 t) := by
  rw [outsAt0_C m c t h0 h1]
  dsimp only
  rw [hiddenLast, lastF, lastI, lastG, lastO]

/-- Entry by entry: the cell's combine of the four sums over all four feature blocks and the old cell state there. -/
theorem hidden_at (c : Dev nD) (t : Fin cfg0.N) (h1 : t.val % 4 = 3) (y : S1024x512.Idx) :
    (((outsAt0 m c t.val t.isLt).1 : Vec Ideal S1024x512 .f32) y : EReal)
      = Cert.LstmCell.combine
          ((0 : EReal) + ∑ s ∈ Finset.range 4, addF m c (4 * (t.val / 4) + s) y)
          ((0 : EReal) + ∑ s ∈ Finset.range 4, addI m c (4 * (t.val / 4) + s) y)
          ((0 : EReal) + ∑ s ∈ Finset.range 4, addG m c (4 * (t.val / 4) + s) y)
          ((0 : EReal) + ∑ s ∈ Finset.range 4, addO m c (4 * (t.val / 4) + s) y)
          (cellBlk m c t y) := by
  rw [hidden_eq m c t (by omega) h1, hiddenBlock_apply, sumF, sumI, sumG, sumO, h1]

end Cert.KernelIdeal.CellSums

end
-- ==== Proof.BlockReads.lean ====
/-
  Where a grid point's blocks sit in the whole arrays.  The grid has 4 batch blocks, 4 hidden blocks and 4 feature
  blocks, the feature block moving fastest: point `t` works on batch block `t / 16`, hidden block `t / 4 % 4` and
  feature block `t % 4`.  The joined rows' block there is 1024 rows by 1024 features, each gate's weight block
  512 hidden units by the same 1024 features, and the old cell state's block 1024 rows by 512 hidden units.
-/
import proofs.«131719_j57303453663323_1_alg».proof.Proof.Gen.KernelIdeal.Frame
import Idealize.ShloMosaic.Lib.Pipeline.Value
import Idealize.ShloMosaic.Lib.ValueIdx

noncomputable section

namespace Cert.KernelIdeal.CellBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The joined rows' block index at point `t`: batch block `t / 16`, feature block `t % 4` (decided over the 64 points). -/
theorem grid_index_0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)

/-- Weight window 1's block index at point `t`: hidden block `t / 4 % 4`, feature block `t % 4`. -/
theorem grid_index_1 : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)

/-- Weight window 2's block index at point `t`: hidden block `t / 4 % 4`, feature block `t % 4`. -/
theorem grid_index_2 : ∀ t : Fin cfg0.N, win0_2.index t 0 = t.val / 4 % 4 ∧ win0_2.index t 1 = t.val % 4 :=
  (by decide +kernel : ∀ t : Fin grid0.N, win0_2.index t 0 = t.val / 4 % 4 ∧ win0_2.index t 1 = t.val % 4)

/-- Weight window 3's block index at point `t`: hidden block `t / 4 % 4`, feature block `t % 4`. -/
theorem grid_index_3 : ∀ t : Fin cfg0.N, win0_3.index t 0 = t.val / 4 % 4 ∧ win0_3.index t 1 = t.val % 4 :=
  (by decide +kernel : ∀ t : Fin grid0.N, win0_3.index t 0 = t.val / 4 % 4 ∧ win0_3.index t 1 = t.val % 4)

/-- Weight window 4's block index at point `t`: hidden block `t / 4 % 4`, feature block `t % 4`. -/
theorem grid_index_4 : ∀ t : Fin cfg0.N, win0_4.index t 0 = t.val / 4 % 4 ∧ win0_4.index t 1 = t.val % 4 :=
  (by decide +kernel : ∀ t : Fin grid0.N, win0_4.index t 0 = t.val / 4 % 4 ∧ win0_4.index t 1 = t.val % 4)

/-- The old cell state's block index at point `t`: batch block `t / 16`, hidden block `t / 4 % 4`. -/
theorem grid_index_5 : ∀ t : Fin cfg0.N, win0_5.index t 0 = t.val / 16 ∧ win0_5.index t 1 = t.val / 4 % 4 :=
  (by decide +kernel : ∀ t : Fin grid0.N, win0_5.index t 0 = t.val / 16 ∧ win0_5.index t 1 = t.val / 4 % 4)

/-- The joined rows' block at point `t`, entry `(p, k)`: row `1024·(t/16) + p`, feature `1024·(t%4) + k` of the joined array. -/
theorem rows_read (c : Dev nD) (t : Fin cfg0.N) (p k : Fin 1024)
    (hb : 1024 * (t.val / 16) + p.val < 4096) (hk : 1024 * (t.val % 4) + k.val < 4096) :
    (iblk m c 0 t : Vec F S1024x1024 .f32) (ix2 p k)
      = (V m c main_v0 : Vec F S4096x4096 .f32) (ix2 ⟨1024 * (t.val / 16) + p.val, hb⟩ ⟨1024 * (t.val % 4) + k.val, hk⟩) := by
  have hi := grid_index_0 t
  unfold iblk
  rw [View.read_apply]
  show V m c main_v0 _ = V m c main_v0 _
  congr 1
  funext a
  apply Fin.ext
  match a with
  | ⟨0, _⟩ =>
    show win0_0.index t 0 * 1024 + 1 * p.val = 1024 * (t.val / 16) + p.val
    rw [hi.1]; omega
  | ⟨1, _⟩ =>
    show win0_0.index t 1 * 1024 + 1 * k.val = 1024 * (t.val % 4) + k.val
    rw [hi.2]; omega

/-- The forget gate's weight block at point `t`, entry `(r, k)`: hidden unit `512·(t/4%4) + r`, feature `1024·(t%4) + k`. -/
theorem weightsF_read (c : Dev nD) (t : Fin cfg0.N) (r : Fin 512) (k : Fin 1024)
    (hh : 512 * (t.val / 4 % 4) + r.val < 2048) (hk : 1024 * (t.val % 4) + k.val < 4096) :
    (iblk m c 1 t : Vec F S512x1024 .f32) (ix2 r k)
      = (V m c main_arg3 : Vec F S2048x4096 .f32) (ix2 ⟨512 * (t.val / 4 % 4) + r.val, hh⟩ ⟨1024 * (t.val % 4) + k.val, hk⟩) := by
  have hi := grid_index_1 t
  unfold iblk
  rw [View.read_apply]
  show V m c main_arg3 _ = V m c main_arg3 _
  congr 1
  funext a
  apply Fin.ext
  match a with
  | ⟨0, _⟩ =>
    show win0_1.index t 0 * 512 + 1 * r.val = 512 * (t.val / 4 % 4) + r.val
    rw [hi.1]; omega
  | ⟨1, _⟩ =>
    show win0_1.index t 1 * 1024 + 1 * k.val = 1024 * (t.val % 4) + k.val
    rw [hi.2]; omega

/-- The input gate's weight block, likewise. -/
theorem weightsI_read (c : Dev nD) (t : Fin cfg0.N) (r : Fin 512) (k : Fin 1024)
    (hh : 512 * (t.val / 4 % 4) + r.val < 2048) (hk : 1024 * (t.val % 4) + k.val < 4096) :
    (iblk m c 2 t : Vec F S512x1024 .f32) (ix2 r k)
      = (V m c main_arg4 : Vec F S2048x4096 .f32) (ix2 ⟨512 * (t.val / 4 % 4) + r.val, hh⟩ ⟨1024 * (t.val % 4) + k.val, hk⟩) := by
  have hi := grid_index_2 t
  unfold iblk
  rw [View.read_apply]
  show V m c main_arg4 _ = V m c main_arg4 _
  congr 1
  funext a
  apply Fin.ext
  match a with
  | ⟨0, _⟩ =>
    show win0_2.index t 0 * 512 + 1 * r.val = 512 * (t.val / 4 % 4) + r.val
    rw [hi.1]; omega
  | ⟨1, _⟩ =>
    show win0_2.index t 1 * 1024 + 1 * k.val = 1024 * (t.val % 4) + k.val
    rw [hi.2]; omega

/-- The candidate gate's weight block, likewise. -/
theorem weightsG_read (c : Dev nD) (t : Fin cfg0.N) (r : Fin 512) (k : Fin 1024)
    (hh : 512 * (t.val / 4 % 4) + r.val < 2048) (hk : 1024 * (t.val % 4) + k.val < 4096) :
    (iblk m c 3 t : Vec F S512x1024 .f32) (ix2 r k)
      = (V m c main_arg5 : Vec F S2048x4096 .f32) (ix2 ⟨512 * (t.val / 4 % 4) + r.val, hh⟩ ⟨1024 * (t.val % 4) + k.val, hk⟩) := by
  have hi := grid_index_3 t
  unfold iblk
  rw [View.read_apply]
  show V m c main_arg5 _ = V m c main_arg5 _
  congr 1
  funext a
  apply Fin.ext
  match a with
  | ⟨0, _⟩ =>
    show win0_3.index t 0 * 512 + 1 * r.val = 512 * (t.val / 4 % 4) + r.val
    rw [hi.1]; omega
  | ⟨1, _⟩ =>
    show win0_3.index t 1 * 1024 + 1 * k.val = 1024 * (t.val % 4) + k.val
    rw [hi.2]; omega

/-- The output gate's weight block, likewise. -/
theorem weightsO_read (c : Dev nD) (t : Fin cfg0.N) (r : Fin 512) (k : Fin 1024)
    (hh : 512 * (t.val / 4 % 4) + r.val < 2048) (hk : 1024 * (t.val % 4) + k.val < 4096) :
    (iblk m c 4 t : Vec F S512x1024 .f32) (ix2 r k)
      = (V m c main_arg6 : Vec F S2048x4096 .f32) (ix2 ⟨512 * (t.val / 4 % 4) + r.val, hh⟩ ⟨1024 * (t.val % 4) + k.val, hk⟩) := by
  have hi := grid_index_4 t
  unfold iblk
  rw [View.read_apply]
  show V m c main_arg6 _ = V m c main_arg6 _
  congr 1
  funext a
  apply Fin.ext
  match a with
  | ⟨0, _⟩ =>
    show win0_4.index t 0 * 512 + 1 * r.val = 512 * (t.val / 4 % 4) + r.val
    rw [hi.1]; omega
  | ⟨1, _⟩ =>
    show win0_4.index t 1 * 1024 + 1 * k.val = 1024 * (t.val % 4) + k.val
    rw [hi.2]; omega

/-- The old cell state's block at point `t`, entry `(p, r)`: row `1024·(t/16) + p`, hidden unit `512·(t/4%4) + r`. -/
theorem cell_read (c : Dev nD) (t : Fin cfg0.N) (p : Fin 1024) (r : Fin 512)
    (hb : 1024 * (t.val / 16) + p.val < 4096) (hh : 512 * (t.val / 4 % 4) + r.val < 2048) :
    (iblk m c 5 t : Vec F S1024x512 .f32) (ix2 p r)
      = (V m c main_arg2 : Vec F S4096x2048 .f32) (ix2 ⟨1024 * (t.val / 16) + p.val, hb⟩ ⟨512 * (t.val / 4 % 4) + r.val, hh⟩) := by
  have hi := grid_index_5 t
  unfold iblk
  rw [View.read_apply]
  show V m c main_arg2 _ = V m c main_arg2 _
  congr 1
  funext a
  apply Fin.ext
  match a with
  | ⟨0, _⟩ =>
    show win0_5.index t 0 * 1024 + 1 * p.val = 1024 * (t.val / 16) + p.val
    rw [hi.1]; omega
  | ⟨1, _⟩ =>
    show win0_5.index t 1 * 512 + 1 * r.val = 512 * (t.val / 4 % 4) + r.val
    rw [hi.2]; omega

end Cert.KernelIdeal.CellBlocks

end
-- ==== Proof.OutputBlocks.lean ====
/-
  The output window's geometry.  The hidden array has 4096 rows by 2048 hidden units and is written in blocks of
  1024 by 512: the block of point `t` is batch block `t / 16`, hidden block `t / 4 % 4`.  A block is written back
  exactly at the last of the four points along the contraction axis (`t % 4 = 3`), when its sums are finished, and
  the sixteen blocks so written tile the whole array: entry `(b, h)` lies in the block of the point
  `16·(b / 1024) + 4·(h / 512) + 3`.
-/
import proofs.«131719_j57303453663323_1_alg».proof.Proof.Gen.KernelIdeal.Frame
import Idealize.ShloMosaic.Lib.Pipeline.Value
import Idealize.ShloMosaic.Lib.ValueIdx

noncomputable section

namespace Cert.KernelIdeal.CellOut

open Cert.KernelIdeal Cert.KernelIdeal.Gen Idealize.ShloMosaic Idealize.ShloMosaic.TcCoe Idealize.SL.Sem
open Idealize.ShloMosaic.ValueIdx

/-- The output's block index at point `t`: batch block `t / 16`, hidden block `t / 4 % 4` (decided over the 64 points). -/
theorem grid_index_6 : ∀ t : Fin cfg0.N, win0_6.index t 0 = t.val / 16 ∧ win0_6.index t 1 = t.val / 4 % 4 :=
  (by decide +kernel : ∀ t : Fin grid0.N, win0_6.index t 0 = t.val / 16 ∧ win0_6.index t 1 = t.val / 4 % 4)

/-- The output's block is written back exactly at the last point of each run of four. -/
theorem flush_iff_last (t : Fin cfg0.N) : (cfg0.win 6).flush t = true ↔ t.val % 4 = 3 := by
  exact (by decide +kernel : ∀ t : Fin grid0.N, (cfg0.win 6).flush t = true ↔ t.val % 4 = 3) t

/-- Where point `t`'s output block sits: its entry `j` is row `1024·(t/16) + j₀`, hidden unit `512·(t/4%4) + j₁`. -/
theorem out_entry (t : Fin cfg0.N) (j : S1024x512.Idx)
    (hb : 1024 * (t.val / 16) + (j 0).val < 4096) (hh : 512 * (t.val / 4 % 4) + (j 1).val < 2048) :
    (((cfg0.win 6).blk t).view.emb j : S4096x2048.Idx)
      = ix2 ⟨1024 * (t.val / 16) + (j 0).val, hb⟩ ⟨512 * (t.val / 4 % 4) + (j 1).val, hh⟩ := by
  have hi := grid_index_6 t
  funext a
  apply Fin.ext
  match a with
  | ⟨0, _⟩ =>
    show win0_6.index t 0 * 1024 + 1 * (j 0).val = 1024 * (t.val / 16) + (j 0).val
    rw [hi.1]; omega
  | ⟨1, _⟩ =>
    show win0_6.index t 1 * 512 + 1 * (j 1).val = 512 * (t.val / 4 % 4) + (j 1).val
    rw [hi.2]; omega

/-- Every entry of the hidden array is in the block some point writes back. -/
theorem cover (i : S4096x2048.Idx) :
    ∃ t : Fin cfg0.N, (cfg0.win 6).flush t = true ∧ i ∈ ((cfg0.win 6).blk t).view.set := by
  have h0 : (i 0).val < 4096 := (i 0).isLt
  have h1 : (i 1).val < 2048 := (i 1).isLt
  have hN : cfg0.N = 64 := N_0
  let t : Fin cfg0.N := ⟨16 * ((i 0).val / 1024) + 4 * ((i 1).val / 512) + 3, by omega⟩
  have ht : t.val = 16 * ((i 0).val / 1024) + 4 * ((i 1).val / 512) + 3 := rfl
  have hi := grid_index_6 t
  refine ⟨t, (flush_iff_last t).mpr (by rw [ht]; omega), ?_⟩
  show i ∈ ((View.whole main_v1).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [hi.1, ht]; omega
  | ⟨1, _⟩ =>
    show win0_6.index t 1 * 512 ≤ (i 1).val ∧ (i 1).val < win0_6.index t 1 * 512 + 512
    rw [hi.2, ht]; omega

end Cert.KernelIdeal.CellOut

end
-- ==== Proof.KernelIsCell.lean ====
/-
  The kernel's result array is the cell step of its arguments.  At a last point of a run of four the stored
  hidden block is the combine of four sums, each the four block products of the run; a block product at feature
  block `s` is the part of the gate's inner product over features `1024·s … 1024·s + 1023`, so the four together are
  the whole inner product over 4096 features: the pre-activation of the specification, at the row and hidden unit
  where the block's entry sits in the whole array.  The blocks written back tile the array, so the array ends as
  the step of the joined rows (which the host builds before the region: `[state | input]`, the same operation the
  reference starts with), the four weight arrays and the old cell state.
-/
import proofs.«131719_j57303453663323_1_alg».proof.Proof.GateSums
import proofs.«131719_j57303453663323_1_alg».proof.Proof.BlockReads
import proofs.«131719_j57303453663323_1_alg».proof.Proof.OutputBlocks
import proofs.«131719_j57303453663323_1_alg».proof.Proof.Gen.KernelIdeal.Value
import Idealize.ShloMosaic.Lib.Pipeline.Value
import Idealize.ShloMosaic.Lib.StableHlo.Run

noncomputable section

namespace Cert.KernelIdeal.CellValue

open Cert.KernelIdeal Cert.KernelIdeal.Gen Cert.KernelIdeal.CellSums Cert.KernelIdeal.CellBlocks Cert.KernelIdeal.CellOut
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The arrays as the region finds them, as arrays of extended reals. -/
abbrev joined (c : Dev nD) : Cert.LstmCell.Joined.Idx → EReal := V m c main_v0
abbrev weightsF (c : Dev nD) : Cert.LstmCell.Weights.Idx → EReal := V m c main_arg3
abbrev weightsI (c : Dev nD) : Cert.LstmCell.Weights.Idx → EReal := V m c main_arg4
abbrev weightsG (c : Dev nD) : Cert.LstmCell.Weights.Idx → EReal := V m c main_arg5
abbrev weightsO (c : Dev nD) : Cert.LstmCell.Weights.Idx → EReal := V m c main_arg6
abbrev cellState (c : Dev nD) : Cert.LstmCell.Hidden.Idx → EReal := V m c main_arg2

/-- What the hidden array ends holding. -/
abbrev result (c : Dev nD) : Cert.LstmCell.Hidden.Idx → EReal :=
  Cert.LstmCell.step (joined m c) (weightsF m c) (weightsI m c) (weightsG m c) (weightsO m c) (cellState m c)

theorem ix2_congr {n0 n1 : Nat} {a a' : Fin n0} {b b' : Fin n1} (ha : a = a') (hb : b = b') : ix2 a b = ix2 a' b' := by
  subst ha; subst hb; rfl

/-! ## Four block products are the whole inner product -/

/-- The forget gate: the run's four block products at a block entry are the pre-activation at the entry's row and hidden unit. -/
theorem preF (c : Dev nD) (t : Fin cfg0.N) (y : S1024x512.Idx) (b : Fin 4096) (h : Fin 2048)
    (hb : b.val = 1024 * (t.val / 16) + (y 0).val) (hh : h.val = 512 * (t.val / 4 % 4) + (y 1).val) :
    (0 : EReal) + ∑ s ∈ Finset.range 4, addF m c (4 * (t.val / 4) + s) y
      = Cert.LstmCell.preact (joined m c) (weightsF m c) b h := by
  have hN : cfg0.N = 64 := N_0
  have ht : t.val < 64 := hN ▸ t.isLt
  have hp : (y 0).val < 1024 := (y 0).isLt
  have hr : (y 1).val < 512 := (y 1).isLt
  rw [zero_add]
  unfold Cert.LstmCell.preact
  rw [show (∑ k : Fin 4096, joined m c (ix2 b k) * weightsF m c (ix2 h k)) = _ from
      (Finset.sum_congr rfl fun k _ => by beta_reduce; rw [dif_pos k.isLt]).trans
        (Cert.LstmCell.sum_four_blocks
          (fun n : ℕ => if hn : n < 4096 then joined m c (ix2 b ⟨n, hn⟩) * weightsF m c (ix2 h ⟨n, hn⟩) else 0))]
  refine Finset.sum_congr rfl fun s hs => ?_
  have hs4 : s < 4 := Finset.mem_range.mp hs
  have hlt : 4 * (t.val / 4) + s < cfg0.N := by omega
  have e : addF m c (4 * (t.val / 4) + s) y
      = ∑ k : Fin 1024, rowsBlk m c ⟨4 * (t.val / 4) + s, hlt⟩ (ix2 (y 0) k) * wBlkF m c ⟨4 * (t.val / 4) + s, hlt⟩ (ix2 (y 1) k) := by
    unfold addF
    rw [dif_pos hlt]
  rw [e]
  refine Finset.sum_congr rfl fun k _ => ?_
  have hk := k.isLt
  have hfeat : 1024 * s + k.val < 4096 := by omega
  beta_reduce
  rw [dif_pos hfeat]
  have hrow : rowsBlk m c ⟨4 * (t.val / 4) + s, hlt⟩ (ix2 (y 0) k) = joined m c (ix2 b ⟨1024 * s + k.val, hfeat⟩) :=
    (rows_read m c ⟨4 * (t.val / 4) + s, hlt⟩ (y 0) k (by show 1024 * ((4 * (t.val / 4) + s) / 16) + (y 0).val < 4096; omega)
      (by show 1024 * ((4 * (t.val / 4) + s) % 4) + k.val < 4096; omega)).trans
      (congrArg (joined m c) (ix2_congr (Fin.ext (by show 1024 * ((4 * (t.val / 4) + s) / 16) + (y 0).val = b.val; omega))
        (Fin.ext (by show 1024 * ((4 * (t.val / 4) + s) % 4) + k.val = 1024 * s + k.val; omega))))
  have hwt : wBlkF m c ⟨4 * (t.val / 4) + s, hlt⟩ (ix2 (y 1) k) = weightsF m c (ix2 h ⟨1024 * s + k.val, hfeat⟩) :=
    (weightsF_read m c ⟨4 * (t.val / 4) + s, hlt⟩ (y 1) k (by show 512 * ((4 * (t.val / 4) + s) / 4 % 4) + (y 1).val < 2048; omega)
      (by show 1024 * ((4 * (t.val / 4) + s) % 4) + k.val < 4096; omega)).trans
      (congrArg (weightsF m c) (ix2_congr (Fin.ext (by show 512 * ((4 * (t.val / 4) + s) / 4 % 4) + (y 1).val = h.val; omega))
        (Fin.ext (by show 1024 * ((4 * (t.val / 4) + s) % 4) + k.val = 1024 * s + k.val; omega))))
  exact congrArg₂ (fun u v : EReal => u * v) hrow hwt

/-- The input gate: the run's four block products at a block entry are the pre-activation at the entry's row and hidden unit. -/
theorem preI (c : Dev nD) (t : Fin cfg0.N) (y : S1024x512.Idx) (b : Fin 4096) (h : Fin 2048)
    (hb : b.val = 1024 * (t.val / 16) + (y 0).val) (hh : h.val = 512 * (t.val / 4 % 4) + (y 1).val) :
    (0 : EReal) + ∑ s ∈ Finset.range 4, addI m c (4 * (t.val / 4) + s) y
      = Cert.LstmCell.preact (joined m c) (weightsI m c) b h := by
  have hN : cfg0.N = 64 := N_0
  have ht : t.val < 64 := hN ▸ t.isLt
  have hp : (y 0).val < 1024 := (y 0).isLt
  have hr : (y 1).val < 512 := (y 1).isLt
  rw [zero_add]
  unfold Cert.LstmCell.preact
  rw [show (∑ k : Fin 4096, joined m c (ix2 b k) * weightsI m c (ix2 h k)) = _ from
      (Finset.sum_congr rfl fun k _ => by beta_reduce; rw [dif_pos k.isLt]).trans
        (Cert.LstmCell.sum_four_blocks
          (fun n : ℕ => if hn : n < 4096 then joined m c (ix2 b ⟨n, hn⟩) * weightsI m c (ix2 h ⟨n, hn⟩) else 0))]
  refine Finset.sum_congr rfl fun s hs => ?_
  have hs4 : s < 4 := Finset.mem_range.mp hs
  have hlt : 4 * (t.val / 4) + s < cfg0.N := by omega
  have e : addI m c (4 * (t.val / 4) + s) y
      = ∑ k : Fin 1024, rowsBlk m c ⟨4 * (t.val / 4) + s, hlt⟩ (ix2 (y 0) k) * wBlkI m c ⟨4 * (t.val / 4) + s, hlt⟩ (ix2 (y 1) k) := by
    unfold addI
    rw [dif_pos hlt]
  rw [e]
  refine Finset.sum_congr rfl fun k _ => ?_
  have hk := k.isLt
  have hfeat : 1024 * s + k.val < 4096 := by omega
  beta_reduce
  rw [dif_pos hfeat]
  have hrow : rowsBlk m c ⟨4 * (t.val / 4) + s, hlt⟩ (ix2 (y 0) k) = joined m c (ix2 b ⟨1024 * s + k.val, hfeat⟩) :=
    (rows_read m c ⟨4 * (t.val / 4) + s, hlt⟩ (y 0) k (by show 1024 * ((4 * (t.val / 4) + s) / 16) + (y 0).val < 4096; omega)
      (by show 1024 * ((4 * (t.val / 4) + s) % 4) + k.val < 4096; omega)).trans
      (congrArg (joined m c) (ix2_congr (Fin.ext (by show 1024 * ((4 * (t.val / 4) + s) / 16) + (y 0).val = b.val; omega))
        (Fin.ext (by show 1024 * ((4 * (t.val / 4) + s) % 4) + k.val = 1024 * s + k.val; omega))))
  have hwt : wBlkI m c ⟨4 * (t.val / 4) + s, hlt⟩ (ix2 (y 1) k) = weightsI m c (ix2 h ⟨1024 * s + k.val, hfeat⟩) :=
    (weightsI_read m c ⟨4 * (t.val / 4) + s, hlt⟩ (y 1) k (by show 512 * ((4 * (t.val / 4) + s) / 4 % 4) + (y 1).val < 2048; omega)
      (by show 1024 * ((4 * (t.val / 4) + s) % 4) + k.val < 4096; omega)).trans
      (congrArg (weightsI m c) (ix2_congr (Fin.ext (by show 512 * ((4 * (t.val / 4) + s) / 4 % 4) + (y 1).val = h.val; omega))
        (Fin.ext (by show 1024 * ((4 * (t.val / 4) + s) % 4) + k.val = 1024 * s + k.val; omega))))
  exact congrArg₂ (fun u v : EReal => u * v) hrow hwt

/-- The candidate gate: the run's four block products at a block entry are the pre-activation at the entry's row and hidden unit. -/
theorem preG (c : Dev nD) (t : Fin cfg0.N) (y : S1024x512.Idx) (b : Fin 4096) (h : Fin 2048)
    (hb : b.val = 1024 * (t.val / 16) + (y 0).val) (hh : h.val = 512 * (t.val / 4 % 4) + (y 1).val) :
    (0 : EReal) + ∑ s ∈ Finset.range 4, addG m c (4 * (t.val / 4) + s) y
      = Cert.LstmCell.preact (joined m c) (weightsG m c) b h := by
  have hN : cfg0.N = 64 := N_0
  have ht : t.val < 64 := hN ▸ t.isLt
  have hp : (y 0).val < 1024 := (y 0).isLt
  have hr : (y 1).val < 512 := (y 1).isLt
  rw [zero_add]
  unfold Cert.LstmCell.preact
  rw [show (∑ k : Fin 4096, joined m c (ix2 b k) * weightsG m c (ix2 h k)) = _ from
      (Finset.sum_congr rfl fun k _ => by beta_reduce; rw [dif_pos k.isLt]).trans
        (Cert.LstmCell.sum_four_blocks
          (fun n : ℕ => if hn : n < 4096 then joined m c (ix2 b ⟨n, hn⟩) * weightsG m c (ix2 h ⟨n, hn⟩) else 0))]
  refine Finset.sum_congr rfl fun s hs => ?_
  have hs4 : s < 4 := Finset.mem_range.mp hs
  have hlt : 4 * (t.val / 4) + s < cfg0.N := by omega
  have e : addG m c (4 * (t.val / 4) + s) y
      = ∑ k : Fin 1024, rowsBlk m c ⟨4 * (t.val / 4) + s, hlt⟩ (ix2 (y 0) k) * wBlkG m c ⟨4 * (t.val / 4) + s, hlt⟩ (ix2 (y 1) k) := by
    unfold addG
    rw [dif_pos hlt]
  rw [e]
  refine Finset.sum_congr rfl fun k _ => ?_
  have hk := k.isLt
  have hfeat : 1024 * s + k.val < 4096 := by omega
  beta_reduce
  rw [dif_pos hfeat]
  have hrow : rowsBlk m c ⟨4 * (t.val / 4) + s, hlt⟩ (ix2 (y 0) k) = joined m c (ix2 b ⟨1024 * s + k.val, hfeat⟩) :=
    (rows_read m c ⟨4 * (t.val / 4) + s, hlt⟩ (y 0) k (by show 1024 * ((4 * (t.val / 4) + s) / 16) + (y 0).val < 4096; omega)
      (by show 1024 * ((4 * (t.val / 4) + s) % 4) + k.val < 4096; omega)).trans
      (congrArg (joined m c) (ix2_congr (Fin.ext (by show 1024 * ((4 * (t.val / 4) + s) / 16) + (y 0).val = b.val; omega))
        (Fin.ext (by show 1024 * ((4 * (t.val / 4) + s) % 4) + k.val = 1024 * s + k.val; omega))))
  have hwt : wBlkG m c ⟨4 * (t.val / 4) + s, hlt⟩ (ix2 (y 1) k) = weightsG m c (ix2 h ⟨1024 * s + k.val, hfeat⟩) :=
    (weightsG_read m c ⟨4 * (t.val / 4) + s, hlt⟩ (y 1) k (by show 512 * ((4 * (t.val / 4) + s) / 4 % 4) + (y 1).val < 2048; omega)
      (by show 1024 * ((4 * (t.val / 4) + s) % 4) + k.val < 4096; omega)).trans
      (congrArg (weightsG m c) (ix2_congr (Fin.ext (by show 512 * ((4 * (t.val / 4) + s) / 4 % 4) + (y 1).val = h.val; omega))
        (Fin.ext (by show 1024 * ((4 * (t.val / 4) + s) % 4) + k.val = 1024 * s + k.val; omega))))
  exact congrArg₂ (fun u v : EReal => u * v) hrow hwt

/-- The output gate: the run's four block products at a block entry are the pre-activation at the entry's row and hidden unit. -/
theorem preO (c : Dev nD) (t : Fin cfg0.N) (y : S1024x512.Idx) (b : Fin 4096) (h : Fin 2048)
    (hb : b.val = 1024 * (t.val / 16) + (y 0).val) (hh : h.val = 512 * (t.val / 4 % 4) + (y 1).val) :
    (0 : EReal) + ∑ s ∈ Finset.range 4, addO m c (4 * (t.val / 4) + s) y
      = Cert.LstmCell.preact (joined m c) (weightsO m c) b h := by
  have hN : cfg0.N = 64 := N_0
  have ht : t.val < 64 := hN ▸ t.isLt
  have hp : (y 0).val < 1024 := (y 0).isLt
  have hr : (y 1).val < 512 := (y 1).isLt
  rw [zero_add]
  unfold Cert.LstmCell.preact
  rw [show (∑ k : Fin 4096, joined m c (ix2 b k) * weightsO m c (ix2 h k)) = _ from
      (Finset.sum_congr rfl fun k _ => by beta_reduce; rw [dif_pos k.isLt]).trans
        (Cert.LstmCell.sum_four_blocks
          (fun n : ℕ => if hn : n < 4096 then joined m c (ix2 b ⟨n, hn⟩) * weightsO m c (ix2 h ⟨n, hn⟩) else 0))]
  refine Finset.sum_congr rfl fun s hs => ?_
  have hs4 : s < 4 := Finset.mem_range.mp hs
  have hlt : 4 * (t.val / 4) + s < cfg0.N := by omega
  have e : addO m c (4 * (t.val / 4) + s) y
      = ∑ k : Fin 1024, rowsBlk m c ⟨4 * (t.val / 4) + s, hlt⟩ (ix2 (y 0) k) * wBlkO m c ⟨4 * (t.val / 4) + s, hlt⟩ (ix2 (y 1) k) := by
    unfold addO
    rw [dif_pos hlt]
  rw [e]
  refine Finset.sum_congr rfl fun k _ => ?_
  have hk := k.isLt
  have hfeat : 1024 * s + k.val < 4096 := by omega
  beta_reduce
  rw [dif_pos hfeat]
  have hrow : rowsBlk m c ⟨4 * (t.val / 4) + s, hlt⟩ (ix2 (y 0) k) = joined m c (ix2 b ⟨1024 * s + k.val, hfeat⟩) :=
    (rows_read m c ⟨4 * (t.val / 4) + s, hlt⟩ (y 0) k (by show 1024 * ((4 * (t.val / 4) + s) / 16) + (y 0).val < 4096; omega)
      (by show 1024 * ((4 * (t.val / 4) + s) % 4) + k.val < 4096; omega)).trans
      (congrArg (joined m c) (ix2_congr (Fin.ext (by show 1024 * ((4 * (t.val / 4) + s) / 16) + (y 0).val = b.val; omega))
        (Fin.ext (by show 1024 * ((4 * (t.val / 4) + s) % 4) + k.val = 1024 * s + k.val; omega))))
  have hwt : wBlkO m c ⟨4 * (t.val / 4) + s, hlt⟩ (ix2 (y 1) k) = weightsO m c (ix2 h ⟨1024 * s + k.val, hfeat⟩) :=
    (weightsO_read m c ⟨4 * (t.val / 4) + s, hlt⟩ (y 1) k (by show 512 * ((4 * (t.val / 4) + s) / 4 % 4) + (y 1).val < 2048; omega)
      (by show 1024 * ((4 * (t.val / 4) + s) % 4) + k.val < 4096; omega)).trans
      (congrArg (weightsO m c) (ix2_congr (Fin.ext (by show 512 * ((4 * (t.val / 4) + s) / 4 % 4) + (y 1).val = h.val; omega))
        (Fin.ext (by show 1024 * ((4 * (t.val / 4) + s) % 4) + k.val = 1024 * s + k.val; omega))))
  exact congrArg₂ (fun u v : EReal => u * v) hrow hwt

/-! ## What a point writes back, the cover, the final array -/

/-- At a last point, entry `y` of the stored hidden block is the result at the entry's place in the whole array. -/
theorem hidden_entry (c : Dev nD) (t : Fin cfg0.N) (h3 : t.val % 4 = 3) (y : S1024x512.Idx)
    (hb : 1024 * (t.val / 16) + (y 0).val < 4096) (hh : 512 * (t.val / 4 % 4) + (y 1).val < 2048) :
    (((outsAt0 m c t.val t.isLt).1 : Vec Ideal S1024x512 .f32) y : EReal)
      = result m c (ix2 ⟨1024 * (t.val / 16) + (y 0).val, hb⟩ ⟨512 * (t.val / 4 % 4) + (y 1).val, hh⟩) := by
  rw [hidden_at m c t h3 y, preF m c t y ⟨_, hb⟩ ⟨_, hh⟩ rfl rfl, preI m c t y ⟨_, hb⟩ ⟨_, hh⟩ rfl rfl,
    preG m c t y ⟨_, hb⟩ ⟨_, hh⟩ rfl rfl, preO m c t y ⟨_, hb⟩ ⟨_, hh⟩ rfl rfl]
  show Cert.LstmCell.combine _ _ _ _ _ = Cert.LstmCell.combine _ _ _ _ _
  refine congrArg (Cert.LstmCell.combine _ _ _ _) ?_
  show (iblk m c 5 t : Vec Ideal S1024x512 .f32) y = _
  exact (congrArg (iblk m c 5 t : Vec Ideal S1024x512 .f32) (eq_ix2 y)).trans (cell_read m c t (y 0) (y 1) hb hh)

/-- A point that writes back writes block `t` of the result. -/
theorem flushed_eq (c : Dev nD) (t : Fin cfg0.N) (hf : (cfg0.win 6).flush t = true) :
    (dats m 0 c).flushed 6 t = ((cfg0.win 6).blk t).view.read (Elt Ideal) (result m c) := by
  have h3 : t.val % 4 = 3 := (flush_iff_last t).mp hf
  have hN : cfg0.N = 64 := N_0
  have ht : t.val < 64 := hN ▸ t.isLt
  rw [Value.flushed6]
  funext j
  have hj0 : (j 0).val < 1024 := (j 0).isLt
  have hj1 : (j 1).val < 512 := (j 1).isLt
  have hb : 1024 * (t.val / 16) + (j 0).val < 4096 := by omega
  have hh : 512 * (t.val / 4 % 4) + (j 1).val < 2048 := by omega
  rw [View.read_apply, out_entry t j hb hh]
  exact hidden_entry m c t h3 j hb hh

/-- The hidden array after the run. -/
theorem final (c : Dev nD) : (dats m 0 c).arrAt 6 cfg0.N = result m c :=
  (dats m 0 c).arrAt_eq_of_cover 6 (result m c) (flushed_eq m c) cover

/-! ## The arguments -/

/-- The host joins `[state | input]` before the region. -/
theorem joined_eq (c : Dev nD) :
    joined m c = concatenate S4096x4096 1 [⟨S4096x2048, m ((c : Thread nD τ).loc main_arg1)⟩, ⟨S4096x2048, m ((c : Thread nD τ).loc main_arg0)⟩]
      concatenates_S4096x2048_S4096x2048_S4096x4096_d1 := by
  show (V m c main_v0 : S4096x4096.Idx → EReal) = _
  dsimp only [Gen.V, Gen.hostOps0]
  after_results

/-- The result as a function of the launched arguments. -/
abbrev resultOfArgs (c : Dev nD) : Cert.LstmCell.Hidden.Idx → EReal :=
  Cert.LstmCell.step
    (concatenate S4096x4096 1 [⟨S4096x2048, m ((c : Thread nD τ).loc main_arg1)⟩, ⟨S4096x2048, m ((c : Thread nD τ).loc main_arg0)⟩]
      concatenates_S4096x2048_S4096x2048_S4096x4096_d1)
    (m ((c : Thread nD τ).loc main_arg3)) (m ((c : Thread nD τ).loc main_arg4)) (m ((c : Thread nD τ).loc main_arg5))
    (m ((c : Thread nD τ).loc main_arg6)) (m ((c : Thread nD τ).loc main_arg2))

theorem result_eq (c : Dev nD) : result m c = resultOfArgs m c := by
  unfold result resultOfArgs
  rw [joined_eq]
  show Cert.LstmCell.step _ (V m c main_arg3) (V m c main_arg4) (V m c main_arg5) (V m c main_arg6) (V m c main_arg2) = _
  rw [V_main_arg3, V_main_arg4, V_main_arg5, V_main_arg6, V_main_arg2]

/-- The kernel's run: the hidden array ends as the cell step of the arguments, which are left as they were. -/
theorem run : θ_run defs (onTc (τ := τ) (main (F := Ideal))) ⟨m, fun _ => 0, ρ⟩ fun r => ∀ c : Dev nD,
      r.2.mem ((c : Thread nD τ).loc main_v1) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_eq m c)), (h c).2⟩)
    (Value.run_blocks m ρ)

end Cert.KernelIdeal.CellValue

end
-- ==== Proof.lean ====
/- An LSTM cell step, tiled over a grid, against its plain reference, over the extended reals.

   The kernel joins `[state | input]` into rows of 4096 features on the host and then runs a grid of 4 batch
   blocks by 4 hidden blocks by 4 feature blocks.  Along the feature axis it keeps, for each of the four gates, a
   running sum of block products (zeros at the first block, one more product at each block), and at the last block it
   stores `σ(o) · tanh(σ(f) · c + σ(i) · σ(g))`, `σ` the logistic function, `c` the old cell state.  The reference
   stacks the four weight arrays, multiplies the joined rows with the stack once, spells `σ(x)` as `1 / (1 + exp (-x))`
   and slices the four gates out of the product.

   Over the extended reals both are the same function of the arguments (`Cert.LstmCell.step`): changing the float
   format is the identity, the product unit's result and the host's product are the exact sums, a sum of 4096 products
   is the sum of its four blocks of 1024 whatever the terms are (so the inputs' finiteness is never used), and the
   logistic function IS `1 / (1 + exp (-x))` at every extended real.  The kernel's side is read off its generated
   frame run (what each point leaves in the scratch blocks and in the output block, folded along the feature axis,
   each written-back block a tile of the result); the reference's side off its generated run, one operation at a time.
   The three frames are the generated ones, and the idealization rewrote nothing, so that claim is `True`. -/
import proofs.«131719_j57303453663323_1_alg».proof.Defs
import proofs.«131719_j57303453663323_1_alg».proof.Proof.Gen.Kernel
import proofs.«131719_j57303453663323_1_alg».proof.Proof.Gen.Kernel.Skeleton
import proofs.«131719_j57303453663323_1_alg».proof.Proof.Gen.Kernel.Launch
import proofs.«131719_j57303453663323_1_alg».proof.Proof.Gen.Kernel.Points
import proofs.«131719_j57303453663323_1_alg».proof.Proof.Gen.Kernel.Frame
import proofs.«131719_j57303453663323_1_alg».proof.Proof.Gen.KernelIdeal
import proofs.«131719_j57303453663323_1_alg».proof.Proof.Gen.KernelIdeal.Skeleton
import proofs.«131719_j57303453663323_1_alg».proof.Proof.Gen.KernelIdeal.Launch
import proofs.«131719_j57303453663323_1_alg».proof.Proof.Gen.KernelIdeal.Points
import proofs.«131719_j57303453663323_1_alg».proof.Proof.Gen.KernelIdeal.Frame
import proofs.«131719_j57303453663323_1_alg».proof.Proof.Gen.ReferenceIdeal
import proofs.«131719_j57303453663323_1_alg».proof.Proof.Gen.Pre_finite_inputs
import proofs.«131719_j57303453663323_1_alg».proof.Proof.Gen.KernelIdeal.Value
import proofs.«131719_j57303453663323_1_alg».proof.Proof.Gen.ReferenceIdeal.Run
import proofs.«131719_j57303453663323_1_alg».proof.Proof.Gen.ReferenceIdeal.Read
import proofs.«131719_j57303453663323_1_alg».proof.Proof.RefIsCell
import proofs.«131719_j57303453663323_1_alg».proof.Proof.KernelIsCell
import Idealize.ShloMosaic.Adequacy
import Idealize.ShloMosaic.Init

noncomputable section

namespace Cert.Proof

open Idealize.ShloMosaic Idealize.SL.Sem Cert.Kernel

/-- The kernel as printed runs, faults nowhere and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals, so there is nothing to state. -/
theorem preserves : Cert.preserves_Kernel_KernelIdeal := trivial

/-- From memories that agree on the arguments, both programs end with the cell step of those arguments. -/
theorem algebraic : Cert.algebraic_KernelIdeal_ReferenceIdeal := by
  intro m ρ m' ρ' _ hagree
  refine ⟨fun c => Cert.KernelIdeal.CellValue.resultOfArgs m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.CellValue.result_is_step]
  obtain ⟨e0, e1, e2, e3, e4, e5, e6⟩ := hagree c
  rw [e0, e1, e2, e3, e4, e5, e6]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
